-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x256x256 : Shape := ⟨4, ![16, 3, 256, 256]⟩
abbrev S64x3x3x3 : Shape := ⟨4, ![64, 3, 3, 3]⟩
abbrev S64 : Shape := ⟨1, ![64]⟩
abbrev S_ : Shape := ⟨0, ![]⟩

class Facts : Prop where
  bcast_S_S16x3x256x256 : S_.BroadcastsInDim S16x3x256x256 (![] : Fin 0 → Fin S16x3x256x256.rank)
  reducesTo_S16x3x256x256_S_d0_1_2_3 : S16x3x256x256.ReducesTo [0, 1, 2, 3] S_
  h_S_ : 0 < S_.numel
  bcast_S_S64x3x3x3 : S_.BroadcastsInDim S64x3x3x3 (![] : Fin 0 → Fin S64x3x3x3.rank)
  reducesTo_S64x3x3x3_S_d0_1_2_3 : S64x3x3x3.ReducesTo [0, 1, 2, 3] S_
  bcast_S_S64 : S_.BroadcastsInDim S64 (![] : Fin 0 → Fin S64.rank)
  reducesTo_S64_S_d0 : S64.ReducesTo [0] S_

variable [Facts]

def fn {F : FTy → Type} [FloatOps F] (main_arg0 : FVec F S16x3x256x256 .f32) (main_arg1 : FVec F S64x3x3x3 .f32) (main_arg2 : FVec F S64 .f32) : IVec S_ 1 :=
  let main_v0 : FVec F S16x3x256x256 .f32 := Host.absf main_arg0
  let main_cst : FVec F S_ .f32 := constant S_ .f32 0x7F800000#32
  let main_v1 : FVec F S16x3x256x256 .f32 := broadcastInDim S16x3x256x256 ![] bcast_S_S16x3x256x256 main_cst
  let main_v2 : IVec S16x3x256x256 1 := cmpf .olt main_v0 main_v1
  let main_c : IVec S_ 1 := constantI S_ 1 1#1
  let main_v3 : IVec S_ 1 := (fun x v => Host.reduce IntOp.andi x v reducesTo_S16x3x256x256_S_d0_1_2_3 h_S_) main_v2 main_c
  let main_v4 : FVec F S64x3x3x3 .f32 := Host.absf main_arg1
  let main_cst_0 : FVec F S_ .f32 := constant S_ .f32 0x7F800000#32
  let main_v5 : FVec F S64x3x3x3 .f32 := broadcastInDim S64x3x3x3 ![] bcast_S_S64x3x3x3 main_cst_0
  let main_v6 : IVec S64x3x3x3 1 := cmpf .olt main_v4 main_v5
  let main_c_1 : IVec S_ 1 := constantI S_ 1 1#1
  let main_v7 : IVec S_ 1 := (fun x v => Host.reduce IntOp.andi x v reducesTo_S64x3x3x3_S_d0_1_2_3 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S16x3x256x256 : Shape := ⟨4, ![16, 3, 256, 256]⟩
abbrev S64x3x3x3 : Shape := ⟨4, ![64, 3, 3, 3]⟩
abbrev S64 : Shape := ⟨1, ![64]⟩
abbrev S16x1x256x256 : Shape := ⟨4, ![16, 1, 256, 256]⟩
abbrev S16x256x256 : Shape := ⟨3, ![16, 256, 256]⟩
abbrev S64x1x3x3 : Shape := ⟨4, ![64, 1, 3, 3]⟩
abbrev S64x3x3 : Shape := ⟨3, ![64, 3, 3]⟩
abbrev S64x9 : Shape := ⟨2, ![64, 9]⟩
abbrev S64x1 : Shape := ⟨2, ![64, 1]⟩
abbrev S16x64x254x254 : Shape := ⟨4, ![16, 64, 254, 254]⟩
abbrev S1x256x256 : Shape := ⟨3, ![1, 256, 256]⟩
abbrev S32x9 : Shape := ⟨2, ![32, 9]⟩
abbrev S32x1 : Shape := ⟨2, ![32, 1]⟩
abbrev S1x32x254x254 : Shape := ⟨4, ![1, 32, 254, 254]⟩
abbrev S256x256 : Shape := ⟨2, ![256, 256]⟩
abbrev S32x254x254 : Shape := ⟨3, ![32, 254, 254]⟩
abbrev S254x254 : Shape := ⟨2, ![254, 254]⟩
abbrev S32x1x1 : Shape := ⟨3, ![32, 1, 1]⟩
abbrev S1x254x254 : Shape := ⟨3, ![1, 254, 254]⟩

abbrev nBuf : Space → Nat
  | .hbm => 10
  | .vmem => 8
  | .smem => 0
  | _ => 0

abbrev bufTy : (tb : Table) → Fin (tcTables nBuf tb) → BufTy
  | .hbm, ⟨0, _⟩ => ⟨S16x3x256x256, .f32⟩
  | .hbm, ⟨1, _⟩ => ⟨S64x3x3x3, .f32⟩
  | .hbm, ⟨2, _⟩ => ⟨S64, .f32⟩
  | .hbm, ⟨3, _⟩ => ⟨S16x1x256x256, .f32⟩
  | .hbm, ⟨4, _⟩ => ⟨S16x256x256, .f32⟩
  | .hbm, ⟨5, _⟩ => ⟨S64x1x3x3, .f32⟩
  | .hbm, ⟨6, _⟩ => ⟨S64x3x3, .f32⟩
  | .hbm, ⟨7, _⟩ => ⟨S64x9, .f32⟩
  | .hbm, ⟨8, _⟩ => ⟨S64x1, .f32⟩
  | .hbm, ⟨9, _⟩ => ⟨S16x64x254x254, .f32⟩
  | .local _ .vmem, ⟨0, _⟩ => ⟨S1x256x256, .f32⟩
  | .local _ .vmem, ⟨1, _⟩ => ⟨S1x256x256, .f32⟩
  | .local _ .vmem, ⟨2, _⟩ => ⟨S32x9, .f32⟩
  | .local _ .vmem, ⟨3, _⟩ => ⟨S32x9, .f32⟩
  | .local _ .vmem, ⟨4, _⟩ => ⟨S32x1, .f32⟩
  | .local _ .vmem, ⟨5, _⟩ => ⟨S32x1, .f32⟩
  | .local _ .vmem, ⟨6, _⟩ => ⟨S1x32x254x254, .f32⟩
  | .local _ .vmem, ⟨7, _⟩ => ⟨S1x32x254x254, .f32⟩
  | _, _ => ⟨S16x3x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S32x9 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S32x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x32x254x254 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  slices_S16x3x256x256_S16x1x256x256_0_0_0_0 : S16x3x256x256.Slices ![0, 0, 0, 0] S16x1x256x256
  shapeCasts_S16x1x256x256_S16x256x256 : S16x1x256x256.ShapeCasts S16x256x256
  slices_S64x3x3x3_S64x1x3x3_0_2_0_0 : S64x3x3x3.Slices ![0, 2, 0, 0] S64x1x3x3
  shapeCasts_S64x1x3x3_S64x3x3 : S64x1x3x3.ShapeCasts S64x3x3
  shapeCasts_S64x3x3_S64x9 : S64x3x3.ShapeCasts S64x9
  shapeCasts_S64_S64x1 : S64.ShapeCasts S64x1
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  slices_S256x256_o0_0_S254x254 : S256x256.Slices ![0, 0] S254x254
  inb_S32x9_S32x1_0_0 : ∀ a, (![0, 0] : Fin 2 → Nat) a + S32x1.size a ≤ S32x9.size a
  h_S32x1 : 0 < S32x1.numel
  shapeCasts_S32x1_S32x1 : S32x1.ShapeCasts S32x1
  shapeCasts_S32x1_S32x1x1 : S32x1.ShapeCasts S32x1x1
  shapeCasts_S254x254_S1x254x254 : S254x254.ShapeCasts S1x254x254
  broadcasts_S32x1x1_S32x254x254 : S32x1x1.Broadcasts S32x254x254
  broadcasts_S1x254x254_S32x254x254 : S1x254x254.Broadcasts S32x254x254
  slices_S256x256_o0_1_S254x254 : S256x256.Slices ![0, 1] S254x254
  inb_S32x9_S32x1_0_1 : ∀ a, (![0, 1] : Fin 2 → Nat) a + S32x1.size a ≤ S32x9.size a
  slices_S256x256_o0_2_S254x254 : S256x256.Slices ![0, 2] S254x254
  inb_S32x9_S32x1_0_2 : ∀ a, (![0, 2] : Fin 2 → Nat) a + S32x1.size a ≤ S32x9.size a
  slices_S256x256_o1_0_S254x254 : S256x256.Slices ![1, 0] S254x254
  inb_S32x9_S32x1_0_3 : ∀ a, (![0, 3] : Fin 2 → Nat) a + S32x1.size a ≤ S32x9.size a
  slices_S256x256_o1_1_S254x254 : S256x256.Slices ![1, 1] S254x254
  inb_S32x9_S32x1_0_4 : ∀ a, (![0, 4] : Fin 2 → Nat) a + S32x1.size a ≤ S32x9.size a
  slices_S256x256_o1_2_S254x254 : S256x256.Slices ![1, 2] S254x254
  inb_S32x9_S32x1_0_5 : ∀ a, (![0, 5] : Fin 2 → Nat) a + S32x1.size a ≤ S32x9.size a
  slices_S256x256_o2_0_S254x254 : S256x256.Slices ![2, 0] S254x254
  inb_S32x9_S32x1_0_6 : ∀ a, (![0, 6] : Fin 2 → Nat) a + S32x1.size a ≤ S32x9.size a
  slices_S256x256_o2_1_S254x254 : S256x256.Slices ![2, 1] S254x254
  inb_S32x9_S32x1_0_7 : ∀ a, (![0, 7] : Fin 2 → Nat) a + S32x1.size a ≤ S32x9.size a
  slices_S256x256_o2_2_S254x254 : S256x256.Slices ![2, 2] S254x254
  inb_S32x9_S32x1_0_8 : ∀ a, (![0, 8] : Fin 2 → Nat) a + S32x1.size a ≤ S32x9.size a
  inb_S32x1_S32x1_0_0 : ∀ a, (![0, 0] : Fin 2 → Nat) a + S32x1.size a ≤ S32x1.size a
  inb_S1x32x254x254_S1x32x254x254_0_0_0_0 : ∀ a, (![0, 0, 0, 0] : Fin 4 → Nat) a + S1x32x254x254.size a ≤ S1x32x254x254.size a
  h_S1x32x254x254 : 0 < S1x32x254x254.numel
  shapeCasts_S1x32x254x254_S32x254x254 : S1x32x254x254.ShapeCasts S32x254x254
  shapeCasts_S32x254x254_S1x32x254x254 : S32x254x254.ShapeCasts S1x32x254x254
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x256.size a ≤ S16x256x256.size a
  hwx0_0 : ∀ i : grid0.Coords, EltTy.bits .f32 = 32 ∨ (Rect.block (s := S16x256x256) S1x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x9.size a ≤ S64x9.size a
  hwx0_1 : ∀ i : grid0.Coords, EltTy.bits .f32 = 32 ∨ (Rect.block (s := S64x9) S32x9.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S64x1.size a
  hwx0_2 : ∀ i : grid0.Coords, EltTy.bits .f32 = 32 ∨ (Rect.block (s := S64x1) S32x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x254x254.size a ≤ S16x64x254x254.size a
  hwx0_3 : ∀ i : grid0.Coords, EltTy.bits .f32 = 32 ∨ (Rect.block (s := S16x64x254x254) S1x32x254x254.size (cc0_transform_3 i) (hinb0_3 i)).WholeWords (EltTy.packing .f32)

variable [Facts₀]

abbrev win0_0 : Pipeline.Window sig grid0 :=
  Pipeline.Window.ofSpec (Memref.whole main_v1) S1x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S32x9.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S32x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x32x254x254.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x3x256x256 : Shape := ⟨4, ![16, 3, 256, 256]⟩
abbrev S64x3x3x3 : Shape := ⟨4, ![64, 3, 3, 3]⟩
abbrev S64 : Shape := ⟨1, ![64]⟩
abbrev S64x1x3x3 : Shape := ⟨4, ![64, 1, 3, 3]⟩
abbrev S64x3x3 : Shape := ⟨3, ![64, 3, 3]⟩
abbrev S64x9 : Shape := ⟨2, ![64, 9]⟩
abbrev S16x1x256x256 : Shape := ⟨4, ![16, 1, 256, 256]⟩
abbrev S16x256x256 : Shape := ⟨3, ![16, 256, 256]⟩
abbrev S16x254x254 : Shape := ⟨3, ![16, 254, 254]⟩
abbrev S16x254x254x1 : Shape := ⟨4, ![16, 254, 254, 1]⟩
abbrev S16x254x254x9 : Shape := ⟨4, ![16, 254, 254, 9]⟩
abbrev S16x254x254x64 : Shape := ⟨4, ![16, 254, 254, 64]⟩
abbrev S16x64x254x254 : Shape := ⟨4, ![16, 64, 254, 254]⟩
abbrev S1x64x1x1 : Shape := ⟨4, ![1, 64, 1, 1]⟩

abbrev nBuf : Space → Nat
  | .hbm => 32
  | .vmem => 0
  | .smem => 0
  | _ => 0

abbrev bufTy : (tb : Table) → Fin (tcTables nBuf tb) → BufTy
  | .hbm, ⟨0, _⟩ => ⟨S16x3x256x256, .f32⟩
  | .hbm, ⟨1, _⟩ => ⟨S64x3x3x3, .f32⟩
  | .hbm, ⟨2, _⟩ => ⟨S64, .f32⟩
  | .hbm, ⟨3, _⟩ => ⟨S64x1x3x3, .f32⟩
  | .hbm, ⟨4, _⟩ => ⟨S64x3x3, .f32⟩
  | .hbm, ⟨5, _⟩ => ⟨S64x9, .f32⟩
  | .hbm, ⟨6, _⟩ => ⟨S16x1x256x256, .f32⟩
  | .hbm, ⟨7, _⟩ => ⟨S16x256x256, .f32⟩
  | .hbm, ⟨8, _⟩ => ⟨S16x254x254, .f32⟩
  | .hbm, ⟨9, _⟩ => ⟨S16x254x254, .f32⟩
  | .hbm, ⟨10, _⟩ => ⟨S16x254x254, .f32⟩
  | .hbm, ⟨11, _⟩ => ⟨S16x254x254, .f32⟩
  | .hbm, ⟨12, _⟩ => ⟨S16x254x254, .f32⟩
  | .hbm, ⟨13, _⟩ => ⟨S16x254x254, .f32⟩
  | .hbm, ⟨14, _⟩ => ⟨S16x254x254, .f32⟩
  | .hbm, ⟨15, _⟩ => ⟨S16x254x254, .f32⟩
  | .hbm, ⟨16, _⟩ => ⟨S16x254x254, .f32⟩
  | .hbm, ⟨17, _⟩ => ⟨S16x254x254x1, .f32⟩
  | .hbm, ⟨18, _⟩ => ⟨S16x254x254x1, .f32⟩
  | .hbm, ⟨19, _⟩ => ⟨S16x254x254x1, .f32⟩
  | .hbm, ⟨20, _⟩ => ⟨S16x254x254x1, .f32⟩
  | .hbm, ⟨21, _⟩ => ⟨S16x254x254x1, .f32⟩
  | .hbm, ⟨22, _⟩ => ⟨S16x254x254x1, .f32⟩
  | .hbm, ⟨23, _⟩ => ⟨S16x254x254x1, .f32⟩
  | .hbm, ⟨24, _⟩ => ⟨S16x254x254x1, .f32⟩
  | .hbm, ⟨25, _⟩ => ⟨S16x254x254x1, .f32⟩
  | .hbm, ⟨26, _⟩ => ⟨S16x254x254x9, .f32⟩
  | .hbm, ⟨27, _⟩ => ⟨S16x254x254x64, .f32⟩
  | .hbm, ⟨28, _⟩ => ⟨S16x64x254x254, .f32⟩
  | .hbm, ⟨29, _⟩ => ⟨S1x64x1x1, .f32⟩
  | .hbm, ⟨30, _⟩ => ⟨S16x64x254x254, .f32⟩
  | .hbm, ⟨31, _⟩ => ⟨S16x64x254x254, .f32⟩
  | _, _ => ⟨S16x3x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩

abbrev nD : Nat := 1
abbrev τ : Topo := Topo.v7x

variable {F : FTy → Type} [FloatOps F]

class Facts₀ : Prop where
  slices_S64x3x3x3_S64x1x3x3_0_2_0_0 : S64x3x3x3.Slices ![0, 2, 0, 0] S64x1x3x3
  shapeCasts_S64x1x3x3_S64x3x3 : S64x1x3x3.ShapeCasts S64x3x3
  shapeCasts_S64x3x3_S64x9 : S64x3x3.ShapeCasts S64x9
  slices_S16x3x256x256_S16x1x256x256_0_0_0_0 : S16x3x256x256.Slices ![0, 0, 0, 0] S16x1x256x256
  shapeCasts_S16x1x256x256_S16x256x256 : S16x1x256x256.ShapeCasts S16x256x256
  slices_S16x256x256_S16x254x254_0_0_0 : S16x256x256.Slices ![0, 0, 0] S16x254x254
  slices_S16x256x256_S16x254x254_0_0_1 : S16x256x256.Slices ![0, 0, 1] S16x254x254
  slices_S16x256x256_S16x254x254_0_0_2 : S16x256x256.Slices ![0, 0, 2] S16x254x254
  slices_S16x256x256_S16x254x254_0_1_0 : S16x256x256.Slices ![0, 1, 0] S16x254x254
  slices_S16x256x256_S16x254x254_0_1_1 : S16x256x256.Slices ![0, 1, 1] S16x254x254
  slices_S16x256x256_S16x254x254_0_1_2 : S16x256x256.Slices ![0, 1, 2] S16x254x254
  slices_S16x256x256_S16x254x254_0_2_0 : S16x256x256.Slices ![0, 2, 0] S16x254x254
  slices_S16x256x256_S16x254x254_0_2_1 : S16x256x256.Slices ![0, 2, 1] S16x254x254
  slices_S16x256x256_S16x254x254_0_2_2 : S16x256x256.Slices ![0, 2, 2] S16x254x254
  bcast_S16x254x254_S16x254x254x1_0_1_2 : S16x254x254.BroadcastsInDim S16x254x254x1 (![0, 1, 2] : Fin 3 → Fin S16x254x254x1.rank)
  concatenates_S16x254x254x1_S16x254x254x1_S16x254x254x1_S16x254x254x1_S16x254x254x1_S16x254x254x1_S16x254x254x1_S16x254x254x1_S16x254x254x1_S16x254x254x9_d3 : Shape.Concatenates [S16x254x254x1, S16x254x254x1, S16x254x254x1, S16x254x254x1, S16x254x254x1, S16x254x254x1, S16x254x254x1, S16x254x254x1, S16x254x254x1] S16x254x254x9 3
  transposes_S16x254x254x64_S16x64x254x254_0_3_1_2 : S16x254x254x64.Transposes [0, 3, 1, 2] S16x64x254x254
  bcast_S64_S1x64x1x1_1 : S64.BroadcastsInDim S1x64x1x1 (![1] : Fin 1 → Fin S1x64x1x1.rank)
  bcast_S1x64x1x1_S16x64x254x254_0_1_2_3 : S1x64x1x1.BroadcastsInDim S16x64x254x254 (![0, 1, 2, 3] : Fin 4 → Fin S16x64x254x254.rank)
  dot_S16x254x254x9_S64x9_S16x254x254x64_3_1_012_0_n_n_wf : DotDims.WF S16x254x254x9 S64x9 S16x254x254x64 [3] [1] [0, 1, 2] [0] [] []

variable [Facts₀]

def dot_S16x254x254x9_S64x9_S16x254x254x64_3_1_012_0_n_n : DotDims S16x254x254x9 S64x9 S16x254x254x64 where
  lhsContracting := [3]
  rhsContracting := [1]
  lhsNonContracting := [0, 1, 2]
  rhsNonContracting := [0]
  lhsBatch := []
  rhsBatch := []
  wf := dot_S16x254x254x9_S64x9_S16x254x254x64_3_1_012_0_n_n_wf

class Facts : Prop extends Facts₀ where

variable [Facts]
-- ==== Proof.ConvSpec.lean ====
/-
  A 3×3 valid cross-correlation of ONE input channel against 64 filters, with a bias.

  Only channel 0 of the input and channel 2 of the weight enter: at output position (n, f, h, v) the result is
      ( Σ_{k < 9}  input[n, 0, h + k / 3, v + k % 3] · weight[f, 2, k / 3, k % 3] ) + bias[f]
  — nine products, tap `k` standing for the window offset (k / 3, k % 3).  `convAt` is that number and `convOut` the
  whole result array.

  One program accumulates the nine products one after the other onto a zero, the weight as the LEFT factor; the other
  states the contraction over the tap index with the weight as the RIGHT factor.  On the extended reals addition and
  multiplication are commutative and associative and `0` is a unit for addition (also at the infinities), so the two
  agree for every input, finite or not: `acc9_eq`.
-/
import Idealize.ShloMosaic.PureOps.Ideal
import Idealize.ShloMosaic.PureOps.Ideal.Laws
import Idealize.ShloMosaic.Lib.ValueIdx

noncomputable section

namespace Cert.Conv

open Idealize.ShloMosaic Idealize.ShloMosaic.ValueIdx

/-- A sum over nine indices, written out in order. -/
theorem sum_fin9 {M : Type*} [AddCommMonoid M] (f : Fin 9 → M) :
    ∑ k, f k = f 0 + f 1 + f 2 + f 3 + f 4 + f 5 + f 6 + f 7 + f 8 := by
  rw [Fin.sum_univ_castSucc, Fin.sum_univ_eight]; rfl

/-- Nine products `a k · b k` accumulated left to right onto zero, then a last summand `c`. -/
def acc9 (a b : Fin 9 → EReal) (c : EReal) : EReal :=
  (0 + a 0 * b 0 + a 1 * b 1 + a 2 * b 2 + a 3 * b 3 + a 4 * b 4 + a 5 * b 5 + a 6 * b 6 + a 7 * b 7 + a 8 * b 8) + c

/-- The accumulation is the sum of the products with the factors exchanged, plus `c`: `0 + x = x`, and
    multiplication of extended reals is commutative. -/
theorem acc9_eq (a b : Fin 9 → EReal) (c : EReal) : acc9 a b c = (∑ k, b k * a k) + c := by
  unfold acc9
  rw [sum_fin9, zero_add, mul_comm (a 0), mul_comm (a 1), mul_comm (a 2), mul_comm (a 3), mul_comm (a 4),
    mul_comm (a 5), mul_comm (a 6), mul_comm (a 7), mul_comm (a 8)]

abbrev SIn : Shape := ⟨4, ![16, 3, 256, 256]⟩
abbrev SWt : Shape := ⟨4, ![64, 3, 3, 3]⟩
abbrev SBias : Shape := ⟨1, ![64]⟩
abbrev SOut : Shape := ⟨4, ![16, 64, 254, 254]⟩

/-- Input channel 0 at row `r`, column `c` of image `n`. -/
def inAt (x : SIn.Idx → EReal) (n : Fin 16) (r c : Fin 256) : EReal := x (ix4 n (0 : Fin 3) r c)

/-- Weight channel 2 of filter `f` at tap `k`, that is at window offset (k / 3, k % 3). -/
def wtAt (w : SWt.Idx → EReal) (f : Fin 64) (k : Fin 9) : EReal :=
  w (ix4 f (2 : Fin 3) (⟨k.val / 3, by have := k.isLt; omega⟩ : Fin 3) (⟨k.val % 3, by omega⟩ : Fin 3))

/-- The input pixel tap `k` of the window at (h, v) reads. -/
def pixAt (x : SIn.Idx → EReal) (n : Fin 16) (h v : Fin 254) (k : Fin 9) : EReal :=
  inAt x n ⟨h.val + k.val / 3, by have := h.isLt; have := k.isLt; omega⟩ ⟨v.val + k.val % 3, by have := v.isLt; omega⟩

/-- The result at (n, f, h, v). -/
def convAt (x : SIn.Idx → EReal) (w : SWt.Idx → EReal) (b : SBias.Idx → EReal) (n : Fin 16) (f : Fin 64) (h v : Fin 254) : EReal :=
  (∑ k : Fin 9, pixAt x n h v k * wtAt w f k) + b (ix1 f)

/-- The whole result array. -/
def convOut (x : SIn.Idx → EReal) (w : SWt.Idx → EReal) (b : SBias.Idx → EReal) : SOut.Idx → EReal := fun i =>
  convAt x w b ⟨(i 0).val, (i 0).isLt⟩ ⟨(i 1).val, (i 1).isLt⟩ ⟨(i 2).val, (i 2).isLt⟩ ⟨(i 3).val, (i 3).isLt⟩

theorem convOut_ix4 (x : SIn.Idx → EReal) (w : SWt.Idx → EReal) (b : SBias.Idx → EReal) (n : Fin 16) (f : Fin 64) (h v : Fin 254) :
    convOut x w b (ix4 n f h v) = convAt x w b n f h v := rfl

/-- Accumulated left to right with the weight as the left factor, the result is the same. -/
theorem acc9_conv (x : SIn.Idx → EReal) (w : SWt.Idx → EReal) (b : SBias.Idx → EReal) (n : Fin 16) (f : Fin 64) (h v : Fin 254) :
    acc9 (fun k => wtAt w f k) (fun k => pixAt x n h v k) (b (ix1 f)) = convAt x w b n f h v := by
  rw [acc9_eq]; rfl

end Cert.Conv

end
-- ==== Proof.RefValue.lean ====
/-
  The reference's result, read index by index, is the 3×3 single-channel cross-correlation `Cert.Conv.convOut`.

  The reference slices channel 2 of the weight and flattens its 3×3 window to 9 taps (`weights_apply`: tap `k` of filter
  `f` is weight[f, 2, k / 3, k % 3]); slices channel 0 of the input, cuts the nine shifted 254×254 windows and stacks
  them along a new last axis (`patches_apply`: entry `k` of the stack at (n, h, v) is input[n, 0, h + k / 3, v + k % 3]);
  contracts the stack with the taps over `k`; moves the filter axis to position 1; and adds the bias broadcast along it.
-/
import proofs.«118091_j39230231281863_1_alg».proof.Proof.Gen.ReferenceIdeal.Read
import proofs.«118091_j39230231281863_1_alg».proof.Proof.ConvSpec
import Idealize.ShloMosaic.Lib.Pipeline.Value
import Idealize.ShloMosaic.Lib.ValueIdx

noncomputable section

namespace Cert.ReferenceIdeal.RefValue

open Cert.ReferenceIdeal Cert.ReferenceIdeal.Read Idealize.ShloMosaic Idealize.ShloMosaic.ValueIdx Cert.Conv

/-- The flattened taps: entry (f, k) of the 64×9 matrix is channel 2 of filter `f` at window offset (k / 3, k % 3). -/
theorem weights_apply (x1 : S64x3x3x3.Idx → EReal) (f : Fin 64) (k : Fin 9) :
    val_main_v2 (F := Ideal) x1 (ix2 f k) = wtAt x1 f k := by
  have hf := f.isLt
  have hk := k.isLt
  rw [val_main_v2_apply, val_main_v1_apply, val_main_v0_apply]
  unfold wtAt
  refine congrArg x1 (funext fun a => Fin.ext ?_)
  match a with
  | ⟨0, _⟩ => show ((((f.val * 9 + k.val) / 9) * 3 + (f.val * 9 + k.val) / 3 % 3) * 3 + (f.val * 9 + k.val) % 3) / 9 = f.val; omega
  | ⟨1, _⟩ => show 2 + 0 = 2; rfl
  | ⟨2, _⟩ => show ((((f.val * 9 + k.val) / 9) * 3 + (f.val * 9 + k.val) / 3 % 3) * 3 + (f.val * 9 + k.val) % 3) / 3 % 3 = k.val / 3; omega
  | ⟨3, _⟩ => show ((((f.val * 9 + k.val) / 9) * 3 + (f.val * 9 + k.val) / 3 % 3) * 3 + (f.val * 9 + k.val) % 3) % 3 = k.val % 3; omega

/-- Channel 0 of the input as a 16×256×256 array. -/
theorem image_apply (x0 : S16x3x256x256.Idx → EReal) (n : Fin 16) (r c : Fin 256) :
    val_main_v4 (F := Ideal) x0 (ix3 n r c) = inAt x0 n r c := by
  have hn := n.isLt
  have hr := r.isLt
  have hc := c.isLt
  rw [val_main_v4_apply, val_main_v3_apply]
  unfold inAt
  refine congrArg x0 (funext fun a => Fin.ext ?_)
  match a with
  | ⟨0, _⟩ => show ((n.val * 256 + r.val) * 256 + c.val) / 65536 = n.val; omega
  | ⟨1, _⟩ => show 0 = 0; rfl
  | ⟨2, _⟩ => show ((n.val * 256 + r.val) * 256 + c.val) / 256 % 256 = r.val; omega
  | ⟨3, _⟩ => show ((n.val * 256 + r.val) * 256 + c.val) % 256 = c.val; omega

/-- One shifted window, with its unit last axis, at (n, h, v, 0): the image at (n, a + h, b + v). The nine windows of the
    program are this statement's nine uses. -/
theorem window_apply (x0 : S16x3x256x256.Idx → EReal) (W : S16x254x254.Idx → EReal) (idx : S16x254x254.Idx → S16x256x256.Idx)
    (a b : Nat) (hW : ∀ i, W i = val_main_v4 (F := Ideal) x0 (idx i))
    (h0 : ∀ i, (idx i 0).val = (i 0).val) (h1 : ∀ i, (idx i 1).val = a + (i 1).val) (h2 : ∀ i, (idx i 2).val = b + (i 2).val)
    (n : Fin 16) (h v : Fin 254) (ha : a + h.val < 256) (hb : b + v.val < 256) :
    W (ix3 n h v) = inAt x0 n ⟨a + h.val, ha⟩ ⟨b + v.val, hb⟩ := by
  rw [hW, ← image_apply]
  refine congrArg _ (funext fun d => Fin.ext ?_)
  match d with
  | ⟨0, _⟩ => exact h0 _
  | ⟨1, _⟩ => exact h1 _
  | ⟨2, _⟩ => exact h2 _

/-- The index a piece of the stack is read at: the same (n, h, v), and 0 on the unit axis. -/
theorem piece_idx (n : Fin 16) (h v : Fin 254) (K : Fin 9) :
    ∀ b : Fin S16x254x254x1.rank, b.cast (rfl : S16x254x254x1.rank = S16x254x254x9.rank) ≠ (3 : Fin 4) →
      ((ix4 n h v (0 : Fin 1) : S16x254x254x1.Idx) b).val = ((ix4 n h v K : S16x254x254x9.Idx) (b.cast rfl)).val := by
  intro b hb
  match b with
  | ⟨0, _⟩ => rfl
  | ⟨1, _⟩ => rfl
  | ⟨2, _⟩ => rfl
  | ⟨3, _⟩ => exact absurd rfl hb

/-- The stack of the nine windows: entry `k` at (n, h, v) is the input pixel tap `k` of the window at (h, v) reads. -/
theorem patches_apply (x0 : S16x3x256x256.Idx → EReal) (n : Fin 16) (h v : Fin 254) (k : Fin 9) :
    val_main_v23 (F := Ideal) x0 (ix4 n h v k) = pixAt x0 n h v k := by
  have hh := h.isLt
  have hv := v.isLt
  unfold val_main_v23 pixAt
  match k with
  | ⟨0, _⟩ =>
    refine Eq.trans (concatenate_apply_piece (t := S16x254x254x9) (3 : Fin 4) _ _ _ 0 ?_ S16x254x254x1 _ rfl rfl 0 rfl
      (ix4 n h v (0 : Fin 1)) (piece_idx n h v 0) rfl) ?_
    · exact (by decide : (0 : ℕ) < 9)
    rw [val_main_v14_apply]
    refine (window_apply x0 (val_main_v5 (F := Ideal) x0) idx_main_v5 0 0 (val_main_v5_apply (F := Ideal) x0) (fun _ => rfl) (fun i => by show (i 1).val = 0 + (i 1).val; omega)
      (fun i => by show (i 2).val = 0 + (i 2).val; omega) n h v (by omega) (by omega)).trans ?_
    exact congrArg₂ (inAt x0 n) (Fin.ext (by show 0 + h.val = h.val + 0 / 3; omega)) (Fin.ext (by show 0 + v.val = v.val + 0 % 3; omega))
  | ⟨1, _⟩ =>
    refine Eq.trans (concatenate_apply_piece (t := S16x254x254x9) (3 : Fin 4) _ _ _ 1 ?_ S16x254x254x1 _ rfl rfl 1 rfl
      (ix4 n h v (0 : Fin 1)) (piece_idx n h v 1) rfl) ?_
    · exact (by decide : (1 : ℕ) < 9)
    rw [val_main_v15_apply]
    refine (window_apply x0 (val_main_v6 (F := Ideal) x0) idx_main_v6 0 1 (val_main_v6_apply (F := Ideal) x0) (fun _ => rfl) (fun i => by show (i 1).val = 0 + (i 1).val; omega)
      (fun _ => rfl) n h v (by omega) (by omega)).trans ?_
    exact congrArg₂ (inAt x0 n) (Fin.ext (by show 0 + h.val = h.val + 1 / 3; omega)) (Fin.ext (by show 1 + v.val = v.val + 1 % 3; omega))
  | ⟨2, _⟩ =>
    refine Eq.trans (concatenate_apply_piece (t := S16x254x254x9) (3 : Fin 4) _ _ _ 2 ?_ S16x254x254x1 _ rfl rfl 2 rfl
      (ix4 n h v (0 : Fin 1)) (piece_idx n h v 2) rfl) ?_
    · exact (by decide : (2 : ℕ) < 9)
    rw [val_main_v16_apply]
    refine (window_apply x0 (val_main_v7 (F := Ideal) x0) idx_main_v7 0 2 (val_main_v7_apply (F := Ideal) x0) (fun _ => rfl) (fun i => by show (i 1).val = 0 + (i 1).val; omega)
      (fun _ => rfl) n h v (by omega) (by omega)).trans ?_
    exact congrArg₂ (inAt x0 n) (Fin.ext (by show 0 + h.val = h.val + 2 / 3; omega)) (Fin.ext (by show 2 + v.val = v.val + 2 % 3; omega))
  | ⟨3, _⟩ =>
    refine Eq.trans (concatenate_apply_piece (t := S16x254x254x9) (3 : Fin 4) _ _ _ 3 ?_ S16x254x254x1 _ rfl rfl 3 rfl
      (ix4 n h v (0 : Fin 1)) (piece_idx n h v 3) rfl) ?_
    · exact (by decide : (3 : ℕ) < 9)
    rw [val_main_v17_apply]
    refine (window_apply x0 (val_main_v8 (F := Ideal) x0) idx_main_v8 1 0 (val_main_v8_apply (F := Ideal) x0) (fun _ => rfl) (fun _ => rfl)
      (fun i => by show (i 2).val = 0 + (i 2).val; omega) n h v (by omega) (by omega)).trans ?_
    exact congrArg₂ (inAt x0 n) (Fin.ext (by show 1 + h.val = h.val + 3 / 3; omega)) (Fin.ext (by show 0 + v.val = v.val + 3 % 3; omega))
  | ⟨4, _⟩ =>
    refine Eq.trans (concatenate_apply_piece (t := S16x254x254x9) (3 : Fin 4) _ _ _ 4 ?_ S16x254x254x1 _ rfl rfl 4 rfl
      (ix4 n h v (0 : Fin 1)) (piece_idx n h v 4) rfl) ?_
    · exact (by decide : (4 : ℕ) < 9)
    rw [val_main_v18_apply]
    refine (window_apply x0 (val_main_v9 (F := Ideal) x0) idx_main_v9 1 1 (val_main_v9_apply (F := Ideal) x0) (fun _ => rfl) (fun _ => rfl)
      (fun _ => rfl) n h v (by omega) (by omega)).trans ?_
    exact congrArg₂ (inAt x0 n) (Fin.ext (by show 1 + h.val = h.val + 4 / 3; omega)) (Fin.ext (by show 1 + v.val = v.val + 4 % 3; omega))
  | ⟨5, _⟩ =>
    refine Eq.trans (concatenate_apply_piece (t := S16x254x254x9) (3 : Fin 4) _ _ _ 5 ?_ S16x254x254x1 _ rfl rfl 5 rfl
      (ix4 n h v (0 : Fin 1)) (piece_idx n h v 5) rfl) ?_
    · exact (by decide : (5 : ℕ) < 9)
    rw [val_main_v19_apply]
    refine (window_apply x0 (val_main_v10 (F := Ideal) x0) idx_main_v10 1 2 (val_main_v10_apply (F := Ideal) x0) (fun _ => rfl) (fun _ => rfl)
      (fun _ => rfl) n h v (by omega) (by omega)).trans ?_
    exact congrArg₂ (inAt x0 n) (Fin.ext (by show 1 + h.val = h.val + 5 / 3; omega)) (Fin.ext (by show 2 + v.val = v.val + 5 % 3; omega))
  | ⟨6, _⟩ =>
    refine Eq.trans (concatenate_apply_piece (t := S16x254x254x9) (3 : Fin 4) _ _ _ 6 ?_ S16x254x254x1 _ rfl rfl 6 rfl
      (ix4 n h v (0 : Fin 1)) (piece_idx n h v 6) rfl) ?_
    · exact (by decide : (6 : ℕ) < 9)
    rw [val_main_v20_apply]
    refine (window_apply x0 (val_main_v11 (F := Ideal) x0) idx_main_v11 2 0 (val_main_v11_apply (F := Ideal) x0) (fun _ => rfl) (fun _ => rfl)
      (fun i => by show (i 2).val = 0 + (i 2).val; omega) n h v (by omega) (by omega)).trans ?_
    exact congrArg₂ (inAt x0 n) (Fin.ext (by show 2 + h.val = h.val + 6 / 3; omega)) (Fin.ext (by show 0 + v.val = v.val + 6 % 3; omega))
  | ⟨7, _⟩ =>
    refine Eq.trans (concatenate_apply_piece (t := S16x254x254x9) (3 : Fin 4) _ _ _ 7 ?_ S16x254x254x1 _ rfl rfl 7 rfl
      (ix4 n h v (0 : Fin 1)) (piece_idx n h v 7) rfl) ?_
    · exact (by decide : (7 : ℕ) < 9)
    rw [val_main_v21_apply]
    refine (window_apply x0 (val_main_v12 (F := Ideal) x0) idx_main_v12 2 1 (val_main_v12_apply (F := Ideal) x0) (fun _ => rfl) (fun _ => rfl)
      (fun _ => rfl) n h v (by omega) (by omega)).trans ?_
    exact congrArg₂ (inAt x0 n) (Fin.ext (by show 2 + h.val = h.val + 7 / 3; omega)) (Fin.ext (by show 1 + v.val = v.val + 7 % 3; omega))
  | ⟨8, _⟩ =>
    refine Eq.trans (concatenate_apply_piece (t := S16x254x254x9) (3 : Fin 4) _ _ _ 8 ?_ S16x254x254x1 _ rfl rfl 8 rfl
      (ix4 n h v (0 : Fin 1)) (piece_idx n h v 8) rfl) ?_
    · exact (by decide : (8 : ℕ) < 9)
    rw [val_main_v22_apply]
    refine (window_apply x0 (val_main_v13 (F := Ideal) x0) idx_main_v13 2 2 (val_main_v13_apply (F := Ideal) x0) (fun _ => rfl) (fun _ => rfl)
      (fun _ => rfl) n h v (by omega) (by omega)).trans ?_
    exact congrArg₂ (inAt x0 n) (Fin.ext (by show 2 + h.val = h.val + 8 / 3; omega)) (Fin.ext (by show 2 + v.val = v.val + 8 % 3; omega))

/-- THE REFERENCE'S RESULT is the cross-correlation, index by index: the contraction over the tap axis of the stacked
    windows against the flattened taps, the filter axis moved to position 1, plus the bias of the filter. -/
theorem ref_eq (x0 : S16x3x256x256.Idx → EReal) (x1 : S64x3x3x3.Idx → EReal) (x2 : S64.Idx → EReal) :
    val_main_v28 (F := Ideal) x0 x1 x2 = convOut x0 x1 x2 := by
  funext i
  obtain ⟨n, f, h, v, rfl⟩ : ∃ (n : Fin 16) (f : Fin 64) (h v : Fin 254), i = ix4 n f h v := ⟨i 0, i 1, i 2, i 3, eq_ix4 i⟩
  rw [val_main_v28_apply, val_main_v25_apply, val_main_v27_apply, val_main_v26_apply, val_main_v24_apply, convOut_ix4]
  unfold convAt
  have e1 : ∀ k : Fin 9, lidx_main_v24 (idx_main_v25 (ix4 n f h v)) k = ix4 n h v k := fun k => funext fun a => by
    match a with
    | ⟨0, _⟩ => rfl
    | ⟨1, _⟩ => rfl
    | ⟨2, _⟩ => rfl
    | ⟨3, _⟩ => rfl
  have e2 : ∀ k : Fin 9, ridx_main_v24 (idx_main_v25 (ix4 n f h v)) k = ix2 f k := fun k => funext fun a => by
    match a with
    | ⟨0, _⟩ => rfl
    | ⟨1, _⟩ => rfl
  have e3 : idx_main_v26 (idx_main_v27 (ix4 n f h v)) = ix1 f := funext fun a => by
    match a with
    | ⟨0, _⟩ => rfl
  simp only [e1, e2, e3, patches_apply, weights_apply]
  rfl

end Cert.ReferenceIdeal.RefValue

end
-- ==== Proof.BlockValue.lean ====
/-
  What one grid point computes, entry by entry.

  The body loads the 256×256 image `P1` (with a leading unit axis), nine columns of the 32×9 block of taps and the 32×1
  block of the bias. For every tap it cuts the 254×254 window of the image at the tap's offset, spreads the tap's column
  over the window and the window over the 32 filters, multiplies, and adds the product to the running sum that starts at
  zero; last it adds the bias column spread the same way, and gives the sum a leading unit axis. All the re-laying
  operations move entries without changing them, so at entry (0, f, h, v) the stored value is
      ((0 + col₀[f]·P1[h + 0, v + 0]) + col₁[f]·P1[h + 0, v + 1] + … + col₈[f]·P1[h + 2, v + 2]) + bias[f],
  tap `k` reading the image at (h + k / 3, v + k % 3): `Cert.Conv.acc9`.
-/
import proofs.«118091_j39230231281863_1_alg».proof.Proof.Gen.KernelIdeal.Skeleton
import proofs.«118091_j39230231281863_1_alg».proof.Proof.ConvSpec
import Idealize.ShloMosaic.Lib.Pipeline.Value
import Idealize.ShloMosaic.Lib.ValueIdx

noncomputable section

namespace Cert.KernelIdeal.Block

open Cert.KernelIdeal Cert.KernelIdeal.Gen Idealize.ShloMosaic Idealize.ShloMosaic.ValueIdx Cert.Conv

/-- The accumulator's initial word is the number zero. -/
theorem zero_word : (Scalar.ofBits .f32 0x00000000#32 : Ideal .f32) = (0 : EReal) := Ideal.ofBits_zero_f32

/-- A 32×1×1 column spread over 32×254×254 reads its row. -/
theorem spread_col (w : FVec Ideal S32x1x1 .f32) (hb : S32x1x1.Broadcasts S32x254x254) (f : Fin 32) (h v : Fin 254) :
    broadcastTo S32x254x254 w hb (ix3 f h v) = w (ix3 f (0 : Fin 1) (0 : Fin 1)) :=
  broadcastTo_apply w hb (ix3 f h v) (ix3 f (0 : Fin 1) (0 : Fin 1)) fun a => by
    match a with
    | ⟨0, _⟩ => show f.val = (if (32 : Nat) = 1 then 0 else f.val); rw [if_neg (by decide)]
    | ⟨1, _⟩ => show 0 = (if (1 : Nat) = 1 then 0 else h.val); rw [if_pos rfl]
    | ⟨2, _⟩ => show 0 = (if (1 : Nat) = 1 then 0 else v.val); rw [if_pos rfl]

/-- A 1×254×254 window spread over the 32 filters reads the window. -/
theorem spread_win (u : FVec Ideal S1x254x254 .f32) (hb : S1x254x254.Broadcasts S32x254x254) (f : Fin 32) (h v : Fin 254) :
    broadcastTo S32x254x254 u hb (ix3 f h v) = u (ix3 (0 : Fin 1) h v) :=
  broadcastTo_apply u hb (ix3 f h v) (ix3 (0 : Fin 1) h v) fun a => by
    match a with
    | ⟨0, _⟩ => show 0 = (if (1 : Nat) = 1 then 0 else f.val); rw [if_pos rfl]
    | ⟨1, _⟩ => show h.val = (if (254 : Nat) = 1 then 0 else h.val); rw [if_neg (by decide)]
    | ⟨2, _⟩ => show v.val = (if (254 : Nat) = 1 then 0 else v.val); rw [if_neg (by decide)]

/-- A loaded 32×1 column, given two unit axes, at row `f`. -/
theorem col_entry (P : Vec Ideal S32x1 .f32) (h1 : S32x1.ShapeCasts S32x1) (h2 : S32x1.ShapeCasts S32x1x1) (f : Fin 32) :
    shapeCast S32x1x1 (shapeCast S32x1 P h1) h2 (ix3 f (0 : Fin 1) (0 : Fin 1)) = P (ix2 f (0 : Fin 1)) := by
  refine (shapeCast_apply _ h2 (ix3 f (0 : Fin 1) (0 : Fin 1)) (ix2 f (0 : Fin 1)) ?_).trans ?_
  · rw [Shape.rowMajor_val_two, Shape.rowMajor_val_three]; show f.val * 1 + 0 = (f.val * 1 + 0) * 1 + 0; omega
  · exact shapeCast_apply P h1 (ix2 f (0 : Fin 1)) (ix2 f (0 : Fin 1)) rfl

/-- The window of the image at offset (a, b), with its leading unit axis, at (0, h, v). -/
theorem win_entry (X : FVec Ideal S256x256 .f32) (a b : Nat) (hs : S256x256.Slices ![a, b] S254x254) (hc : S254x254.ShapeCasts S1x254x254)
    (h v : Fin 254) (ha : h.val + a < 256) (hb : v.val + b < 256) :
    shapeCast S1x254x254 (extractStridedSlice S254x254 ![a, b] X hs) hc (ix3 (0 : Fin 1) h v) = X (ix2 (⟨h.val + a, ha⟩ : Fin 256) (⟨v.val + b, hb⟩ : Fin 256)) := by
  refine (shapeCast_apply _ hc (ix3 (0 : Fin 1) h v) (ix2 h v) ?_).trans ?_
  · rw [Shape.rowMajor_val_two, Shape.rowMajor_val_three]; show h.val * 254 + v.val = (0 * 254 + h.val) * 254 + v.val; omega
  · exact extractStridedSlice_apply ![a, b] X hs (ix2 h v) (ix2 (⟨h.val + a, ha⟩ : Fin 256) (⟨v.val + b, hb⟩ : Fin 256)) fun d => by
      match d with
      | ⟨0, _⟩ => show h.val + a = a + h.val; omega
      | ⟨1, _⟩ => show v.val + b = b + v.val; omega

/-- The loaded 1×256×256 image without its unit axis. -/
theorem img_entry (P1 : Vec Ideal S1x256x256 .f32) (hc : S1x256x256.ShapeCasts S256x256) (r c : Fin 256) :
    shapeCast S256x256 P1 hc (ix2 r c) = P1 (ix3 (0 : Fin 1) r c) := by
  refine shapeCast_apply P1 hc (ix2 r c) (ix3 (0 : Fin 1) r c) ?_
  rw [Shape.rowMajor_val_two, Shape.rowMajor_val_three]; show (0 * 256 + r.val) * 256 + c.val = r.val * 256 + c.val; omega

/-- The 32×254×254 sum with the leading unit axis of the stored block. -/
theorem out_entry (X : FVec Ideal S32x254x254 .f32) (hc : S32x254x254.ShapeCasts S1x32x254x254) (f : Fin 32) (h v : Fin 254) :
    shapeCast S1x32x254x254 X hc (ix4 (0 : Fin 1) f h v) = X (ix3 f h v) := by
  refine shapeCast_apply X hc (ix4 (0 : Fin 1) f h v) (ix3 f h v) ?_
  rw [Shape.rowMajor_val_three, Shape.rowMajor_val_four]; show (f.val * 254 + h.val) * 254 + v.val = ((0 * 32 + f.val) * 254 + h.val) * 254 + v.val; omega

/-- The window at offset (a, b) of the loaded image, at (0, h, v): the image at (h + a, v + b). -/
theorem win_img_entry (P1 : Vec Ideal S1x256x256 .f32) (a b : Nat) (hs : S256x256.Slices ![a, b] S254x254) (hc : S254x254.ShapeCasts S1x254x254)
    (hc' : S1x256x256.ShapeCasts S256x256) (h v : Fin 254) (ha : h.val + a < 256) (hb : v.val + b < 256) :
    shapeCast S1x254x254 (extractStridedSlice S254x254 ![a, b] (shapeCast S256x256 P1 hc') hs) hc (ix3 (0 : Fin 1) h v)
      = P1 (ix3 (0 : Fin 1) (⟨h.val + a, ha⟩ : Fin 256) (⟨v.val + b, hb⟩ : Fin 256)) :=
  (win_entry _ a b hs hc h v ha hb).trans (img_entry P1 hc' _ _)

/-- The image pixel tap `k` of the window at (h, v) reads, in the loaded block. -/
def pix (P1 : Vec Ideal S1x256x256 .f32) (h v : Fin 254) (k : Fin 9) : EReal :=
  P1 (ix3 (0 : Fin 1) (⟨h.val + k.val / 3, by have := h.isLt; have := k.isLt; omega⟩ : Fin 256) (⟨v.val + k.val % 3, by have := v.isLt; omega⟩ : Fin 256))

/-- THE STORED VALUE at entry (0, f, h, v) of the block: the nine products accumulated from zero, then the bias. -/
theorem payload_entry (P0 : Vec Ideal S32x1 .f32) (P1 : Vec Ideal S1x256x256 .f32) (P2 P3 P4 P5 P6 P7 P8 P9 P10 : Vec Ideal S32x1 .f32)
    (f : Fin 32) (h v : Fin 254) :
    k0_pay1 (k0_pay6 (k0_pay2 P1) (k0_pay3 P1 P0 P2 P3 P4) (k0_pay4 P5) (k0_pay5 P1) P6 P7 P8 P9 P10) (ix4 (0 : Fin 1) f h v)
      = acc9 (fun k => (![P0, P2, P3, P4, P5, P6, P7, P8, P9] k) (ix2 f (0 : Fin 1))) (fun k => pix P1 h v k) (P10 (ix2 f (0 : Fin 1))) := by
  have hh := h.isLt
  have hv := v.isLt
  unfold k0_pay1 k0_pay6 k0_pay3 k0_pay4 k0_pay5 k0_pay2 acc9 pix
  dsimp only
  simp only [out_entry, addf_apply, mulf_apply, broadcast_apply, spread_col, spread_win, zero_word]
  rw [col_entry P0 _ _ f, col_entry P2 _ _ f, col_entry P3 _ _ f, col_entry P4 _ _ f, col_entry P5 _ _ f, col_entry P6 _ _ f,
    col_entry P7 _ _ f, col_entry P8 _ _ f, col_entry P9 _ _ f, col_entry P10 _ _ f]
  rw [win_img_entry P1 0 0 _ _ _ h v (by omega) (by omega), win_img_entry P1 0 1 _ _ _ h v (by omega) (by omega),
    win_img_entry P1 0 2 _ _ _ h v (by omega) (by omega), win_img_entry P1 1 0 _ _ _ h v (by omega) (by omega),
    win_img_entry P1 1 1 _ _ _ h v (by omega) (by omega), win_img_entry P1 1 2 _ _ _ h v (by omega) (by omega),
    win_img_entry P1 2 0 _ _ _ h v (by omega) (by omega), win_img_entry P1 2 1 _ _ _ h v (by omega) (by omega),
    win_img_entry P1 2 2 _ _ _ h v (by omega) (by omega)]
  rfl

end Cert.KernelIdeal.Block

end
-- ==== Proof.KernelValue.lean ====
/-
  The kernel's result array is the cross-correlation `Cert.Conv.convOut` of the argument arrays.

  Before the grid runs, the host slices channel 0 of the input (16 images of 256×256: `images_apply`), slices channel 2 of
  the weight and flattens its 3×3 window to 9 taps (a 64×9 matrix: `taps_apply`), and makes the bias a 64×1 column
  (`biascol_apply`). Grid point (n, φ) is handed image `n` whole and rows 32φ … 32φ + 31 of the tap matrix and of the bias
  column, and writes the 1×32×254×254 block of the result at block index (n, φ, 0, 0). What it writes at entry (0, f, h, v)
  of the block is the nine products accumulated from zero plus the bias (`block_value`), which, read through the windows,
  is the cross-correlation at (n, 32φ + f, h, v) (`point_value`, `flushed_eq`). The 16 × 2 blocks tile the result
  (`covered`), so the array the run leaves is `convOut` of the arguments (`result`, `run`).
-/
import proofs.«118091_j39230231281863_1_alg».proof.Proof.Gen.KernelIdeal.Frame
import proofs.«118091_j39230231281863_1_alg».proof.Proof.BlockValue
import proofs.«118091_j39230231281863_1_alg».proof.Proof.ConvSpec
import Idealize.ShloMosaic.Lib.Pipeline.Value
import Idealize.ShloMosaic.Lib.ValueIdx
import Idealize.ShloMosaic.Lib.StableHlo.Run

noncomputable section

namespace Cert.KernelIdeal.KValue

open Cert.KernelIdeal Cert.KernelIdeal.Gen Cert.KernelIdeal.Block
open Idealize.ShloMosaic Idealize.ShloMosaic.TcCoe Idealize.SL.Sem Idealize.ShloMosaic.StableHlo
open Idealize.ShloMosaic.ValueIdx Cert.Conv
open Idealize.ShloMosaic.Pipeline (Dat)

variable (m : (ℓ : Loc nD τ sig) → Buf (Elt Ideal) ℓ) (ρ : Dev nD → PrngReg)

/-- The three argument arrays of core `c`, as arrays of extended reals. -/
abbrev inArr (c : Dev nD) : SIn.Idx → EReal := m ((c : Thread nD τ).loc main_arg0)
abbrev wtArr (c : Dev nD) : SWt.Idx → EReal := m ((c : Thread nD τ).loc main_arg1)
abbrev biasArr (c : Dev nD) : SBias.Idx → EReal := m ((c : Thread nD τ).loc main_arg2)

/-! ## The arrays the grid reads -/

/-- The images: channel 0 of the input. -/
theorem images_apply (c : Dev nD) (n : Fin 16) (r s : Fin 256) :
    (V m c main_v1 : S16x256x256.Idx → EReal) (ix3 n r s) = inAt (inArr m c) n r s := by
  have e : (V m c main_v1 : S16x256x256.Idx → EReal)
      = shapeCast S16x256x256 (extractStridedSlice S16x1x256x256 ![0, 0, 0, 0] (inArr m c) slices_S16x3x256x256_S16x1x256x256_0_0_0_0)
          shapeCasts_S16x1x256x256_S16x256x256 := by
    dsimp only [Gen.V, Gen.hostOps0]; after_results; rfl
  rw [e]
  refine (shapeCast_apply _ _ (ix3 n r s) (ix4 n (0 : Fin 1) r s) ?_).trans ?_
  · rw [Shape.rowMajor_val_four, Shape.rowMajor_val_three]
    show ((n.val * 1 + 0) * 256 + r.val) * 256 + s.val = (n.val * 256 + r.val) * 256 + s.val; omega
  · exact extractStridedSlice_apply ![0, 0, 0, 0] _ _ (ix4 n (0 : Fin 1) r s) (ix4 n (0 : Fin 3) r s) fun d => by
      match d with
      | ⟨0, _⟩ => show n.val = 0 + n.val; omega
      | ⟨1, _⟩ => show 0 = 0 + 0; rfl
      | ⟨2, _⟩ => show r.val = 0 + r.val; omega
      | ⟨3, _⟩ => show s.val = 0 + s.val; omega

/-- The taps: entry (f, k) is channel 2 of filter `f` at window offset (k / 3, k % 3). -/
theorem taps_apply (c : Dev nD) (f : Fin 64) (k : Fin 9) :
    (V m c main_v4 : S64x9.Idx → EReal) (ix2 f k) = wtAt (wtArr m c) f k := by
  have hk := k.isLt
  have e : (V m c main_v4 : S64x9.Idx → EReal)
      = shapeCast S64x9 (shapeCast S64x3x3 (extractStridedSlice S64x1x3x3 ![0, 2, 0, 0] (wtArr m c) slices_S64x3x3x3_S64x1x3x3_0_2_0_0)
          shapeCasts_S64x1x3x3_S64x3x3) shapeCasts_S64x3x3_S64x9 := by
    dsimp only [Gen.V, Gen.hostOps0]; after_results; rfl
  rw [e]
  refine (shapeCast_apply _ _ (ix2 f k) (ix3 f (⟨k.val / 3, by omega⟩ : Fin 3) (⟨k.val % 3, by omega⟩ : Fin 3)) ?_).trans ?_
  · rw [Shape.rowMajor_val_three, Shape.rowMajor_val_two]
    show (f.val * 3 + k.val / 3) * 3 + k.val % 3 = f.val * 9 + k.val; omega
  refine (shapeCast_apply _ _ (ix3 f (⟨k.val / 3, by omega⟩ : Fin 3) (⟨k.val % 3, by omega⟩ : Fin 3))
    (ix4 f (0 : Fin 1) (⟨k.val / 3, by omega⟩ : Fin 3) (⟨k.val % 3, by omega⟩ : Fin 3)) ?_).trans ?_
  · rw [Shape.rowMajor_val_four, Shape.rowMajor_val_three]
    show ((f.val * 1 + 0) * 3 + k.val / 3) * 3 + k.val % 3 = (f.val * 3 + k.val / 3) * 3 + k.val % 3; omega
  · exact extractStridedSlice_apply ![0, 2, 0, 0] _ _ (ix4 f (0 : Fin 1) (⟨k.val / 3, by omega⟩ : Fin 3) (⟨k.val % 3, by omega⟩ : Fin 3))
      (ix4 f (2 : Fin 3) (⟨k.val / 3, by omega⟩ : Fin 3) (⟨k.val % 3, by omega⟩ : Fin 3)) fun d => by
      match d with
      | ⟨0, _⟩ => show f.val = 0 + f.val; omega
      | ⟨1, _⟩ => show 2 = 2 + 0; rfl
      | ⟨2, _⟩ => show k.val / 3 = 0 + k.val / 3; omega
      | ⟨3, _⟩ => show k.val % 3 = 0 + k.val % 3; omega

/-- The bias as a column. -/
theorem biascol_apply (c : Dev nD) (f : Fin 64) :
    (V m c main_v5 : S64x1.Idx → EReal) (ix2 f (0 : Fin 1)) = biasArr m c (ix1 f) := by
  have e : (V m c main_v5 : S64x1.Idx → EReal) = shapeCast S64x1 (biasArr m c) shapeCasts_S64_S64x1 := by
    dsimp only [Gen.V, Gen.hostOps0]; after_results; rfl
  rw [e]
  refine shapeCast_apply _ _ (ix2 f (0 : Fin 1)) (ix1 f) ?_
  rw [Shape.rowMajor_val_one, Shape.rowMajor_val_two]
  show f.val = f.val * 1 + 0; omega

/-! ## One block, over the loaded blocks as variables -/

theorem zeros2 : (![0, 0] : Fin 2 → Nat) = fun _ => 0 := funext fun a => by fin_cases a <;> rfl
theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- Column `kc` of the 32×9 block of taps, loaded as a 32×1 vector, at row `f`. -/
theorem ld_col (x1 : Vec Ideal S32x9 .f32) (kc : Nat) (inb : ∀ a, (![0, kc] : Fin 2 → Nat) a + S32x1.size a ≤ S32x9.size a)
    (hk : kc < 9) (f : Fin 32) :
    View.ld x1 (Rect.unit (s := S32x9) ![0, kc] S32x1.size inb) (ix2 f (0 : Fin 1)) = x1 (ix2 f (⟨kc, hk⟩ : Fin 9)) := by
  refine congrArg x1 (funext fun a => Fin.ext ?_)
  match a with
  | ⟨0, _⟩ => show 0 + 1 * f.val = f.val; omega
  | ⟨1, _⟩ => show kc + 1 * 0 = kc; omega

/-- WHAT A POINT LEAVES in its output block, entry by entry, from the blocks it was handed: the nine taps of row `f`
    against the image window at (h, v), accumulated from zero, plus row `f` of the bias column. -/
theorem block_value (x0 : Vec Ideal S1x256x256 .f32) (x1 : Vec Ideal S32x9 .f32) (x2 : Vec Ideal S32x1 .f32) (f : Fin 32) (h v : Fin 254) :
    out0_3 x0 x1 x2 (ix4 (0 : Fin 1) f h v) = acc9 (fun k => x1 (ix2 f k)) (fun k => pix x0 h v k) (x2 (ix2 f (0 : Fin 1))) := by
  unfold out0_3
  rw [View.canon_unit_zero (S := S1x32x254x254) zeros4, payload_entry,
    View.ld_unit_zero (S := S1x256x256) zeros3, View.ld_unit_zero (S := S32x1) zeros2]
  congr 1
  funext k
  match k with
  | ⟨0, _⟩ => exact ld_col x1 0 _ (by decide) f
  | ⟨1, _⟩ => exact ld_col x1 1 _ (by decide) f
  | ⟨2, _⟩ => exact ld_col x1 2 _ (by decide) f
  | ⟨3, _⟩ => exact ld_col x1 3 _ (by decide) f
  | ⟨4, _⟩ => exact ld_col x1 4 _ (by decide) f
  | ⟨5, _⟩ => exact ld_col x1 5 _ (by decide) f
  | ⟨6, _⟩ => exact ld_col x1 6 _ (by decide) f
  | ⟨7, _⟩ => exact ld_col x1 7 _ (by decide) f
  | ⟨8, _⟩ => exact ld_col x1 8 _ (by decide) f

/-! ## The block through the windows -/

/-- The printed index maps over the 32 grid points: image window 0 follows the output's axis 0, the tap and bias windows
    follow its axis 1, every other block index is 0, and the output's block indices stay inside 16 × 2. -/
theorem idx_facts : ∀ t : Fin cfg0.N,
    win0_0.index t (0 : Fin 3) = win0_3.index t (0 : Fin 4) ∧ win0_0.index t (1 : Fin 3) = 0 ∧ win0_0.index t (2 : Fin 3) = 0
    ∧ win0_1.index t (0 : Fin 2) = win0_3.index t (1 : Fin 4) ∧ win0_1.index t (1 : Fin 2) = 0
    ∧ win0_2.index t (0 : Fin 2) = win0_3.index t (1 : Fin 4) ∧ win0_2.index t (1 : Fin 2) = 0
    ∧ win0_3.index t (2 : Fin 4) = 0 ∧ win0_3.index t (3 : Fin 4) = 0
    ∧ win0_3.index t (0 : Fin 4) < 16 ∧ win0_3.index t (1 : Fin 4) < 2 :=
  (by decide +kernel : ∀ t : Fin grid0.N, _)

/-- Every block of the 16 × 2 box is some point's. -/
theorem idx_onto : ∀ (q0 : Fin 16) (q1 : Fin 2), ∃ t : Fin cfg0.N, win0_3.index t = ![q0.val, q1.val, 0, 0] :=
  (by decide +kernel : ∀ (q0 : Fin 16) (q1 : Fin 2), ∃ t : Fin grid0.N, win0_3.index t = ![q0.val, q1.val, 0, 0])

/-- Entry (0, f, h, v) of the block point `t` writes is the cross-correlation at the array index (n, g, h', v') under it. -/
theorem point_value (c : Dev nD) (t : Fin cfg0.N) (f : Fin 32) (h v : Fin 254) (n : Fin 16) (g : Fin 64) (h' v' : Fin 254)
    (h0 : n.val = win0_3.index t (0 : Fin 4) * 1 + 1 * 0) (h1 : g.val = win0_3.index t (1 : Fin 4) * 32 + 1 * f.val)
    (h2 : h'.val = win0_3.index t (2 : Fin 4) * 254 + 1 * h.val) (h3 : v'.val = win0_3.index t (3 : Fin 4) * 254 + 1 * v.val) :
    out0_3 (iblk m c 0 t) (iblk m c 1 t) (iblk m c 2 t) (ix4 (0 : Fin 1) f h v)
      = convOut (inArr m c) (wtArr m c) (biasArr m c) (ix4 n g h' v') := by
  obtain ⟨e00, e01, e02, e10, e11, e20, e21, e32, e33, b0, b1⟩ := idx_facts t
  have hf := f.isLt
  have hh := h.isLt
  have hv := v.isLt
  refine (block_value (iblk m c 0 t) (iblk m c 1 t) (iblk m c 2 t) f h v).trans ?_
  rw [convOut_ix4, ← acc9_conv]
  congr 1
  · funext k
    have hk := k.isLt
    refine Eq.trans ?_ (taps_apply m c g k)
    show V m c main_v4 (((cfg0.win 1).blk t).view.emb (ix2 f k)) = V m c main_v4 (ix2 g k)
    refine congrArg _ (funext fun a => Fin.ext ?_)
    match a with
    | ⟨0, _⟩ => show win0_1.index t (0 : Fin 2) * 32 + 1 * f.val = g.val; omega
    | ⟨1, _⟩ => show win0_1.index t (1 : Fin 2) * 9 + 1 * k.val = k.val; omega
  · funext k
    have hk := k.isLt
    unfold pix pixAt
    refine Eq.trans ?_ (images_apply m c n _ _)
    show V m c main_v1 (((cfg0.win 0).blk t).view.emb (ix3 (0 : Fin 1) (⟨h.val + k.val / 3, by omega⟩ : Fin 256) (⟨v.val + k.val % 3, by omega⟩ : Fin 256)))
      = V m c main_v1 (ix3 n (⟨h'.val + k.val / 3, by omega⟩ : Fin 256) (⟨v'.val + k.val % 3, by omega⟩ : Fin 256))
    refine congrArg _ (funext fun a => Fin.ext ?_)
    match a with
    | ⟨0, _⟩ => show win0_0.index t (0 : Fin 3) * 1 + 1 * 0 = n.val; omega
    | ⟨1, _⟩ => show win0_0.index t (1 : Fin 3) * 256 + 1 * (h.val + k.val / 3) = h'.val + k.val / 3; omega
    | ⟨2, _⟩ => show win0_0.index t (2 : Fin 3) * 256 + 1 * (v.val + k.val % 3) = v'.val + k.val % 3; omega
  · refine Eq.trans ?_ (biascol_apply m c g)
    show V m c main_v5 (((cfg0.win 2).blk t).view.emb (ix2 f (0 : Fin 1))) = V m c main_v5 (ix2 g (0 : Fin 1))
    refine congrArg _ (funext fun a => Fin.ext ?_)
    match a with
    | ⟨0, _⟩ => show win0_2.index t (0 : Fin 2) * 32 + 1 * f.val = g.val; omega
    | ⟨1, _⟩ => show win0_2.index t (1 : Fin 2) * 1 + 1 * 0 = 0; omega

/-- The same at any entry `y` of the block and the array index `i` under it, the two related axis by axis. -/
theorem point_value' (c : Dev nD) (t : Fin cfg0.N) (y : S1x32x254x254.Idx) (i : S16x64x254x254.Idx)
    (h0 : (i 0).val = win0_3.index t (0 : Fin 4) * 1 + 1 * (y 0).val) (h1 : (i 1).val = win0_3.index t (1 : Fin 4) * 32 + 1 * (y 1).val)
    (h2 : (i 2).val = win0_3.index t (2 : Fin 4) * 254 + 1 * (y 2).val) (h3 : (i 3).val = win0_3.index t (3 : Fin 4) * 254 + 1 * (y 3).val) :
    out0_3 (iblk m c 0 t) (iblk m c 1 t) (iblk m c 2 t) y = convOut (inArr m c) (wtArr m c) (biasArr m c) i := by
  have hy0 : (y 0).val < 1 := (y 0).isLt
  have hz : y 0 = (0 : Fin 1) := Fin.ext (by show (y 0).val = 0; omega)
  have ey := eq_ix4 y
  have ei := eq_ix4 i
  rw [hz] at ey
  rw [ey, ei]
  exact point_value m c t (y 1) (y 2) (y 3) (i 0) (i 1) (i 2) (i 3) (by rw [h0]; omega) h1 h2 h3

/-- WHAT POINT `t` WRITES BACK is block `t` of the cross-correlation of the argument arrays. -/
theorem flushed_eq (c : Dev nD) (t : Fin cfg0.N) :
    (dats m 0 c).flushed 3 t = ((cfg0.win 3).blk t).view.read (Elt Ideal) (convOut (inArr m c) (wtArr m c) (biasArr m c)) := by
  show (cfg0.win 3).cut (grid0.coords t) ((dats m 0 c).after 3 t) = _
  rw [after0_3]
  funext y
  show out0_3 (iblk m c 0 t) (iblk m c 1 t) (iblk m c 2 t) y
    = convOut (inArr m c) (wtArr m c) (biasArr m c) (((cfg0.win 3).blk t).view.emb y)
  exact point_value' m c t y _ rfl rfl rfl rfl

/-! ## The blocks tile the result -/

/-- An index of the result is in point `t`'s block iff each coordinate is in the block's range on its axis. -/
theorem mem_blk (t : Fin cfg0.N) (i : S16x64x254x254.Idx) :
    i ∈ ((cfg0.win 3).blk t).view.set ↔ ∀ a : Fin 4, win0_3.index t a * S1x32x254x254.size a ≤ (i a).val
      ∧ (i a).val < win0_3.index t a * S1x32x254x254.size a + S1x32x254x254.size a := by
  show i ∈ ((View.whole main_v6).slice (win0_3.rect t)).set ↔ _
  rw [View.set_slice_whole, Rect.mem_set_unit]
  exact Iff.rfl

/-- Every index of the result is in some point's block: image (i 0), filter tile (i 1) / 32. -/
theorem covered (i : S16x64x254x254.Idx) : ∃ t : Fin cfg0.N, (cfg0.win 3).flush t = true ∧ i ∈ ((cfg0.win 3).blk t).view.set := by
  have hi0 : (i 0).val < 16 := (i 0).isLt
  have hi1 : (i 1).val < 64 := (i 1).isLt
  have hi2 : (i 2).val < 254 := (i 2).isLt
  have hi3 : (i 3).val < 254 := (i 3).isLt
  obtain ⟨t, ht⟩ := idx_onto ⟨(i 0).val, hi0⟩ ⟨(i 1).val / 32, by omega⟩
  have q0 : win0_3.index t (0 : Fin 4) = (i 0).val := congrFun ht 0
  have q1 : win0_3.index t (1 : Fin 4) = (i 1).val / 32 := congrFun ht 1
  have q2 : win0_3.index t (2 : Fin 4) = 0 := congrFun ht 2
  have q3 : win0_3.index t (3 : Fin 4) = 0 := congrFun ht 3
  refine ⟨t, flush0_3 t, ?_⟩
  rw [mem_blk]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 32 ≤ (i 1).val ∧ (i 1).val < win0_3.index t (1 : Fin 4) * 32 + 32; omega
  | ⟨2, _⟩ => show win0_3.index t (2 : Fin 4) * 254 ≤ (i 2).val ∧ (i 2).val < win0_3.index t (2 : Fin 4) * 254 + 254; omega
  | ⟨3, _⟩ => show win0_3.index t (3 : Fin 4) * 254 ≤ (i 3).val ∧ (i 3).val < win0_3.index t (3 : Fin 4) * 254 + 254; omega

/-! ## The run -/

/-- THE RESULT ARRAY after the run is the cross-correlation of the argument arrays. -/
theorem result (c : Dev nD) : (dats m 0 c).arrAt 3 cfg0.N = convOut (inArr m c) (wtArr m c) (biasArr m c) :=
  (dats m 0 c).arrAt_eq_of_cover 3 (convOut (inArr m c) (wtArr m c) (biasArr m c)) (fun t _ => flushed_eq m c t) covered

/-- Every weakly fair execution of the kernel's @main ends with the result array at the cross-correlation of the argument
    arrays and the arguments as they were: the frame run, its output array named. -/
theorem run : θ_run defs (onTc (τ := τ) (main (F := Ideal))) ⟨m, fun _ => 0, ρ⟩ fun r => ∀ c : Dev nD,
      r.2.mem ((c : Thread nD τ).loc main_v6) = convOut (inArr m c) (wtArr m c) (biasArr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 3).trans (result m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.KernelIdeal.KValue

end
-- ==== Proof.lean ====
/-
  A Pallas kernel for a 3×3 valid cross-correlation in which only ONE input channel survives, against its jnp reference.

  Both programs take input : f32[16, 3, 256, 256], weight : f32[64, 3, 3, 3], bias : f32[64] and return f32[16, 64, 254, 254]:
      out[n, f, h, v] = ( Σ_{k < 9} input[n, 0, h + k / 3, v + k % 3] · weight[f, 2, k / 3, k % 3] ) + bias[f]
  (`Cert.Conv.convOut`, Proof/ConvSpec.lean). The reference stacks the nine shifted windows of channel 0 and contracts the
  stack with the flattened taps of channel 2 (Proof/RefValue.lean); the kernel, on a 16 × 2 grid of (image, tile of 32
  filters), accumulates the nine products from zero with the tap as the left factor and adds the bias (Proof/BlockValue.lean,
  Proof/KernelValue.lean). Over the extended reals the two differ by commutativity of the product, the order of a
  nine-term sum and a leading `0 +` only, so they agree on every input and the precondition is never opened.

  The three frames are the generated ones (the reference's is its generated run with the result dropped); the ideal pass
  rewrote nothing, so `preserves` is `True`.
-/
import proofs.«118091_j39230231281863_1_alg».proof.Defs
import proofs.«118091_j39230231281863_1_alg».proof.Proof.Gen.Kernel
import proofs.«118091_j39230231281863_1_alg».proof.Proof.Gen.Kernel.Frame
import proofs.«118091_j39230231281863_1_alg».proof.Proof.Gen.KernelIdeal
import proofs.«118091_j39230231281863_1_alg».proof.Proof.Gen.KernelIdeal.Frame
import proofs.«118091_j39230231281863_1_alg».proof.Proof.Gen.ReferenceIdeal
import proofs.«118091_j39230231281863_1_alg».proof.Proof.Gen.Pre_finite_inputs
import proofs.«118091_j39230231281863_1_alg».proof.Proof.Gen.ReferenceIdeal.Run
import proofs.«118091_j39230231281863_1_alg».proof.Proof.Gen.ReferenceIdeal.Read
import proofs.«118091_j39230231281863_1_alg».proof.Proof.ConvSpec
import proofs.«118091_j39230231281863_1_alg».proof.Proof.RefValue
import proofs.«118091_j39230231281863_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the three arguments both programs end with the cross-correlation of those arguments:
    the kernel's result array by `KValue.run`, the reference's by its run read index by index (`RefValue.ref_eq`). -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, (hagree c).1, (hagree c).2.1, (hagree c).2.2]
  exact Cert.ReferenceIdeal.RefValue.ref_eq _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
